-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x8192x1024 : Shape := ⟨3, ![8, 8192, 1024]⟩
abbrev S16x64x3 : Shape := ⟨3, ![16, 64, 3]⟩
abbrev S_ : Shape := ⟨0, ![]⟩

class Facts : Prop where
  bcast_S_S8x8192x1024 : S_.BroadcastsInDim S8x8192x1024 (![] : Fin 0 → Fin S8x8192x1024.rank)
  reducesTo_S8x8192x1024_S_d0_1_2 : S8x8192x1024.ReducesTo [0, 1, 2] S_
  h_S_ : 0 < S_.numel
  bcast_S_S16x64x3 : S_.BroadcastsInDim S16x64x3 (![] : Fin 0 → Fin S16x64x3.rank)
  reducesTo_S16x64x3_S_d0_1_2 : S16x64x3.ReducesTo [0, 1, 2] S_

variable [Facts]

def fn {F : FTy → Type} [FloatOps F] (main_arg0 : FVec F S8x8192x1024 .f32) (main_arg1 : FVec F S16x64x3 .f32) : IVec S_ 1 :=
  let main_v0 : FVec F S8x8192x1024 .f32 := Host.absf main_arg0
  let main_cst : FVec F S_ .f32 := constant S_ .f32 0x7F800000#32
  let main_v1 : FVec F S8x8192x1024 .f32 := broadcastInDim S8x8192x1024 ![] bcast_S_S8x8192x1024 main_cst
  let main_v2 : IVec S8x8192x1024 1 := cmpf .olt main_v0 main_v1
  let main_c : IVec S_ 1 := constantI S_ 1 1#1
  let main_v3 : IVec S_ 1 := (fun x v => Host.reduce IntOp.andi x v reducesTo_S8x8192x1024_S_d0_1_2 h_S_) main_v2 main_c
  let main_v4 : FVec F S16x64x3 .f32 := Host.absf main_arg1
  let main_cst_0 : FVec F S_ .f32 := constant S_ .f32 0x7F800000#32
  let main_v5 : FVec F S16x64x3 .f32 := broadcastInDim S16x64x3 ![] bcast_S_S16x64x3 main_cst_0
  let main_v6 : IVec S16x64x3 1 := cmpf .olt main_v4 main_v5
  let main_c_1 : IVec S_ 1 := constantI S_ 1 1#1
  let main_v7 : IVec S_ 1 := (fun x v => Host.reduce IntOp.andi x v reducesTo_S16x64x3_S_d0_1_2 h_S_) main_v6 main_c_1
  let main_v8 : IVec S_ 1 := andi main_v3 main_v7
  main_v8
-- ==== Kernel.lean ====
abbrev S8x8192x1024 : Shape := ⟨3, ![8, 8192, 1024]⟩
abbrev S16x64x3 : Shape := ⟨3, ![16, 64, 3]⟩
abbrev S16x64x1 : Shape := ⟨3, ![16, 64, 1]⟩
abbrev S16x64 : Shape := ⟨2, ![16, 64]⟩
abbrev S1x1x1024 : Shape := ⟨3, ![1, 1, 1024]⟩
abbrev S1x512x1024 : Shape := ⟨3, ![1, 512, 1024]⟩

abbrev nBuf : Space → Nat
  | .hbm => 7
  | .vmem => 5
  | .smem => 0
  | _ => 0

abbrev bufTy : (tb : Table) → Fin (tcTables nBuf tb) → BufTy
  | .hbm, ⟨0, _⟩ => ⟨S8x8192x1024, .f32⟩
  | .hbm, ⟨1, _⟩ => ⟨S16x64x3, .f32⟩
  | .hbm, ⟨2, _⟩ => ⟨S16x64x1, .f32⟩
  | .hbm, ⟨3, _⟩ => ⟨S16x64, .f32⟩
  | .hbm, ⟨4, _⟩ => ⟨S16x64, .f32⟩
  | .hbm, ⟨5, _⟩ => ⟨S1x1x1024, .f32⟩
  | .hbm, ⟨6, _⟩ => ⟨S8x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x512x1024, .f32⟩
  | .local _ .vmem, ⟨4, _⟩ => ⟨S1x512x1024, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  slices_S16x64x3_S16x64x1_0_0_0 : S16x64x3.Slices ![0, 0, 0] S16x64x1
  shapeCasts_S16x64x1_S16x64 : S16x64x1.ShapeCasts S16x64
  shapeCasts_S16x64_S1x1x1024 : S16x64.ShapeCasts S1x1x1024
  inb_S1x512x1024_S1x512x1024_0_0_0 : ∀ a, (![0, 0, 0] : Fin 3 → Nat) a + S1x512x1024.size a ≤ S1x512x1024.size a
  h_S1x512x1024 : 0 < S1x512x1024.numel
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1x1024 : S1x1x1024.ShapeCasts S1x1x1024
  broadcasts_S1x1x1024_S1x512x1024 : S1x1x1024.Broadcasts S1x512x1024
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S8x8192x1024.size a
  hwx0_0 : ∀ i : grid0.Coords, EltTy.bits .f32 = 32 ∨ (Rect.block (s := S8x8192x1024) S1x512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1x1024.size a ≤ S1x1x1024.size a
  hwx0_1 : ∀ i : grid0.Coords, EltTy.bits .f32 = 32 ∨ (Rect.block (s := S1x1x1024) S1x1x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x1024.size a ≤ S8x8192x1024.size a
  hwx0_2 : ∀ i : grid0.Coords, EltTy.bits .f32 = 32 ∨ (Rect.block (s := S8x8192x1024) S1x512x1024.size (cc0_transform_2 i) (hinb0_2 i)).WholeWords (EltTy.packing .f32)

variable [Facts₀]

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1x1x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x512x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x8192x1024 : Shape := ⟨3, ![8, 8192, 1024]⟩
abbrev S16x64x3 : Shape := ⟨3, ![16, 64, 3]⟩
abbrev S8x8192x16x64 : Shape := ⟨4, ![8, 8192, 16, 64]⟩
abbrev S16x64x1 : Shape := ⟨3, ![16, 64, 1]⟩
abbrev S16x64 : Shape := ⟨2, ![16, 64]⟩
abbrev S1x1x16x64 : Shape := ⟨4, ![1, 1, 16, 64]⟩

abbrev nBuf : Space → Nat
  | .hbm => 11
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S16x64x3, .f32⟩
  | .hbm, ⟨2, _⟩ => ⟨S8x8192x16x64, .f32⟩
  | .hbm, ⟨3, _⟩ => ⟨S16x64x1, .f32⟩
  | .hbm, ⟨4, _⟩ => ⟨S16x64, .f32⟩
  | .hbm, ⟨5, _⟩ => ⟨S16x64, .f32⟩
  | .hbm, ⟨6, _⟩ => ⟨S8x8192x16x64, .f32⟩
  | .hbm, ⟨7, _⟩ => ⟨S1x1x16x64, .f32⟩
  | .hbm, ⟨8, _⟩ => ⟨S8x8192x16x64, .f32⟩
  | .hbm, ⟨9, _⟩ => ⟨S8x8192x16x64, .f32⟩
  | .hbm, ⟨10, _⟩ => ⟨S8x8192x1024, .f32⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩

abbrev nD : Nat := 1
abbrev τ : Topo := Topo.v7x

variable {F : FTy → Type} [FloatOps F]

class Facts₀ : Prop where
  shapeCasts_S8x8192x1024_S8x8192x16x64 : S8x8192x1024.ShapeCasts S8x8192x16x64
  slices_S16x64x3_S16x64x1_0_0_0 : S16x64x3.Slices ![0, 0, 0] S16x64x1
  shapeCasts_S16x64x1_S16x64 : S16x64x1.ShapeCasts S16x64
  bcast_S16x64_S1x1x16x64_2_3 : S16x64.BroadcastsInDim S1x1x16x64 (![2, 3] : Fin 2 → Fin S1x1x16x64.rank)
  bcast_S1x1x16x64_S8x8192x16x64_0_1_2_3 : S1x1x16x64.BroadcastsInDim S8x8192x16x64 (![0, 1, 2, 3] : Fin 4 → Fin S8x8192x16x64.rank)
  shapeCasts_S8x8192x16x64_S8x8192x1024 : S8x8192x16x64.ShapeCasts S8x8192x1024

variable [Facts₀]

class Facts : Prop extends Facts₀ where

variable [Facts]
-- ==== Proof.Readout.lean ====
/-
  What both programs compute, as ONE function of the two argument arrays over the extended reals:

      out[b, s, e] = cos(x[b, s, e]) · cos(params[e / 64, e % 64, 0]).

  The 1024 channels are 16 groups of 64, so channel `e` is member `e % 64` of group `e / 64`, and the factor that scales it
  is the cosine of entry `(e / 64, e % 64, 0)` of the 16 × 64 × 3 parameter array. (The sources call the groups heads, the
  entries rotation angles and the product a ⟨Z⟩ readout; that reading is theirs, and nothing below uses more than the formula.)

  Nothing here needs an input to be finite: each side is one product of two cosines, read at the same index.
-/
import Idealize.ShloMosaic.PureOps.Ideal
import Idealize.ShloMosaic.Lib.ValueIdx

noncomputable section

namespace Cert.Readout

open Idealize.ShloMosaic Idealize.ShloMosaic.ValueIdx

/-- The parameter entry whose cosine scales channel `e`: group `e / 64`, member `e % 64`, last coordinate `0`. -/
abbrev angleAt (e : Nat) (he : e < 1024) : (⟨3, ![16, 64, 3]⟩ : Shape).Idx :=
  ix3 (⟨e / 64, by omega⟩ : Fin 16) (⟨e % 64, Nat.mod_lt _ (by decide)⟩ : Fin 64) (0 : Fin 3)

/-- The result array: at each index the cosine of the input there times the cosine of its channel's parameter entry. -/
def readout (x : (⟨3, ![8, 8192, 1024]⟩ : Shape).Idx → EReal) (p : (⟨3, ![16, 64, 3]⟩ : Shape).Idx → EReal) :
    (⟨3, ![8, 8192, 1024]⟩ : Shape).Idx → EReal :=
  fun i => Ideal.cos (x i) * Ideal.cos (p (angleAt (i 2).val (i 2).isLt))

theorem readout_apply (x : (⟨3, ![8, 8192, 1024]⟩ : Shape).Idx → EReal) (p : (⟨3, ![16, 64, 3]⟩ : Shape).Idx → EReal)
    (i : (⟨3, ![8, 8192, 1024]⟩ : Shape).Idx) :
    readout x p i = Ideal.cos (x i) * Ideal.cos (p (angleAt (i 2).val (i 2).isLt)) := rfl

/-- A position in the parameters with channel `e`'s group and member and last coordinate `0` is `angleAt e`. -/
theorem angleAt_eq (e : Nat) (he : e < 1024) (k : (⟨3, ![16, 64, 3]⟩ : Shape).Idx)
    (h0 : (k 0).val = e / 64) (h1 : (k 1).val = e % 64) (h2 : (k 2).val = 0) : k = angleAt e he := by
  funext a; apply Fin.ext
  match a with
  | ⟨0, _⟩ => exact h0
  | ⟨1, _⟩ => exact h1
  | ⟨2, _⟩ => exact h2

end Cert.Readout

end
-- ==== Proof.ReferenceReadout.lean ====
/-
  The reference's result array is `readout` of its two arguments.

  The reference splits the channel axis 1024 = 16 × 64, takes the cosine of every entry, multiplies by the 16 × 64 table of
  cosines of `params[·, ·, 0]` broadcast over the two leading axes, and joins the two axes again. Read at `(b, s, e)`:
  joining then splitting lands on `(b, s, e / 64, e % 64)`, whose row-major position in the split array is that of
  `(b, s, e)` in the joined one, so the input is read at `(b, s, e)` itself; and the table is read at `(e / 64, e % 64)`,
  which the slice and the reshape before it trace back to `params[e / 64, e % 64, 0]`.
-/
import proofs.«167785_j65481071406286_1_alg».proof.Proof.Gen.ReferenceIdeal.Read
import proofs.«167785_j65481071406286_1_alg».proof.Proof.Readout

noncomputable section

namespace Cert.ReferenceIdeal.RefValue

open Cert.ReferenceIdeal Cert.ReferenceIdeal.Read Cert.Readout Idealize.ShloMosaic Idealize.ShloMosaic.TcCoe

/-- Splitting the channel axis and joining it again moves no entry: the position `(b, s, e)` is read at `(b, s, e)`. -/
theorem split_join (i : S8x8192x1024.Idx) : idx_main_v0 (idx_main_v8 i) = i := by
  have h0 : (i 0).val < 8 := (i 0).isLt
  have h1 : (i 1).val < 8192 := (i 1).isLt
  have h2 : (i 2).val < 1024 := (i 2).isLt
  funext a; apply Fin.ext
  match a with
  | ⟨0, _⟩ => show (((((((i 0).val * 8192 + (i 1).val) * 1024 + (i 2).val) / 8388608) * 8192 + ((((i 0).val * 8192 + (i 1).val) * 1024 + (i 2).val) / 1024 % 8192)) * 16 + ((((i 0).val * 8192 + (i 1).val) * 1024 + (i 2).val) / 64 % 16)) * 64 + ((((i 0).val * 8192 + (i 1).val) * 1024 + (i 2).val) % 64)) / 8388608 = (i 0).val; omega
  | ⟨1, _⟩ => show (((((((i 0).val * 8192 + (i 1).val) * 1024 + (i 2).val) / 8388608) * 8192 + ((((i 0).val * 8192 + (i 1).val) * 1024 + (i 2).val) / 1024 % 8192)) * 16 + ((((i 0).val * 8192 + (i 1).val) * 1024 + (i 2).val) / 64 % 16)) * 64 + ((((i 0).val * 8192 + (i 1).val) * 1024 + (i 2).val) % 64)) / 1024 % 8192 = (i 1).val; omega
  | ⟨2, _⟩ => show (((((((i 0).val * 8192 + (i 1).val) * 1024 + (i 2).val) / 8388608) * 8192 + ((((i 0).val * 8192 + (i 1).val) * 1024 + (i 2).val) / 1024 % 8192)) * 16 + ((((i 0).val * 8192 + (i 1).val) * 1024 + (i 2).val) / 64 % 16)) * 64 + ((((i 0).val * 8192 + (i 1).val) * 1024 + (i 2).val) % 64)) % 1024 = (i 2).val; omega

/-- The broadcast table of cosines, read at `(b, s, e)`, traces back to the parameter entry `(e / 64, e % 64, 0)`. -/
theorem table_pos (i : S8x8192x1024.Idx) :
    idx_main_v1 (idx_main_v2 (idx_main_v5 (idx_main_v6 (idx_main_v8 i)))) = angleAt (i 2).val (i 2).isLt := by
  have h0 : (i 0).val < 8 := (i 0).isLt
  have h1 : (i 1).val < 8192 := (i 1).isLt
  have h2 : (i 2).val < 1024 := (i 2).isLt
  refine angleAt_eq _ _ _ ?_ ?_ ?_
  · show (((((i 0).val * 8192 + (i 1).val) * 1024 + (i 2).val) / 64 % 16) * 64 + ((((i 0).val * 8192 + (i 1).val) * 1024 + (i 2).val) % 64)) / 64 = (i 2).val / 64; omega
  · show (((((i 0).val * 8192 + (i 1).val) * 1024 + (i 2).val) / 64 % 16) * 64 + ((((i 0).val * 8192 + (i 1).val) * 1024 + (i 2).val) % 64)) / 1 % 64 = (i 2).val % 64; omega
  · rfl

/-- The reference's last stage, index by index: the host's cosine of the input at the same position times the host's cosine
    of the channel's parameter entry — both the extended reals' `cos`, their product the extended reals' product. -/
theorem result_eq (x : (⟨S8x8192x1024, .f32⟩ : BufTy).Contents (Elt Ideal)) (p : (⟨S16x64x3, .f32⟩ : BufTy).Contents (Elt Ideal)) :
    val_main_v8 (F := Ideal) x p = readout x p := by
  funext i
  rw [val_main_v8_apply, val_main_v7_apply, val_main_v4_apply, val_main_v0_apply, val_main_v6_apply, val_main_v5_apply,
    val_main_v3_apply, val_main_v2_apply, val_main_v1_apply, split_join, table_pos]
  rfl

end Cert.ReferenceIdeal.RefValue

end
-- ==== Proof.KernelReadout.lean ====
/-
  The kernel's result array is `readout` of its two arguments.

  Before the region the host builds one row of 1024 scales: the cosine of `params[·, ·, 0]`, its 16 × 64 entries laid out
  row-major, so that scale `e` is the cosine of `params[e / 64, e % 64, 0]`. The region walks 8 × 16 points; at point
  `(b, j)` it multiplies the cosine of rows `512 j … 512 j + 511` of batch `b` of the input, entry by entry, by that row of
  scales (the same row at every point) and writes the product back over the same rows of the result. The 128 blocks tile
  the result array, so index by index it ends at `cos(x[b, s, e]) · cos(params[e / 64, e % 64, 0])`.
-/
import proofs.«167785_j65481071406286_1_alg».proof.Proof.Gen.KernelIdeal.Value
import proofs.«167785_j65481071406286_1_alg».proof.Proof.Readout
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Hand

open Cert.KernelIdeal Cert.KernelIdeal.Gen Cert.KernelIdeal.Value Cert.Readout Idealize.ShloMosaic.ValueIdx

variable (m : (ℓ : Loc nD τ sig) → Buf (Elt Ideal) ℓ) (ρ : Dev nD → PrngReg)

theorem hz : (![0, 0, 0] : Fin 3 → Nat) = fun _ => 0 := funext fun a => by fin_cases a <;> rfl

/-! ## One point's block -/

/-- Inside a block the input is read where the product is written. -/
theorem same_place (y : S1x512x1024.Idx) : ix2_0 y = y := by
  have hy0 : (y 0).val < 1 := (y 0).isLt
  funext a; apply Fin.ext
  match a with
  | ⟨0, _⟩ => show 0 = (y 0).val; omega
  | ⟨1, _⟩ => rfl
  | ⟨2, _⟩ => rfl

/-- What the body leaves at `y` of its output block, from an input block `X` and a row of scales `R`: the cosine of
    `X` at `y` times the scale of `y`'s channel. -/
theorem block_apply (X : Vec Ideal S1x512x1024 .f32) (R : Vec Ideal S1x1x1024 .f32) (y : S1x512x1024.Idx) :
    out0_2 X R y = Ideal.cos (X y) * R (ix2_1 y) := by
  unfold out0_2
  rw [canon2_eq]
  show FloatOps.mulf (F := Ideal) (φ := .f32) (FloatOps.cos (F := Ideal) (φ := .f32) (View.ld X r0_0 (ix2_0 y))) (View.ld R r0_1 (ix2_1 y)) = _
  have l0 : View.ld X r0_0 = X := View.ld_unit_zero (S := S1x512x1024) hz _ X
  have l1 : View.ld R r0_1 = R := View.ld_unit_zero (S := S1x1x1024) hz _ R
  rw [same_place, l0, l1]
  rfl

/-! ## The row of scales -/

/-- The row of scales as the region finds it: the host's cosine of the first of the three parameter planes, re-laid as one row. -/
theorem scale_row (c : Dev nD) :
    (V m c main_v3 : S1x1x1024.Idx → EReal)
      = shapeCast S1x1x1024 (Host.cos (F := Ideal) (φ := .f32) (shapeCast S16x64 (extractStridedSlice S16x64x1 ![0, 0, 0] (m ((c : Thread nD τ).loc main_arg1) : FVec Ideal S16x64x3 .f32) slices_S16x64x3_S16x64x1_0_0_0) shapeCasts_S16x64x1_S16x64)) shapeCasts_S16x64_S1x1x1024 := by
  dsimp only [Gen.V, Gen.hostOps0]; after_results; rfl

/-- Scale `e` of that row is the cosine of the parameter entry `(e / 64, e % 64, 0)`: row-major, position `e` of the row is
    position `(e / 64, e % 64)` of the 16 × 64 plane, which is `(e / 64, e % 64, 0)` of the parameters. -/
theorem scale_row_apply (p : FVec Ideal S16x64x3 .f32) (k : S1x1x1024.Idx) :
    shapeCast S1x1x1024 (Host.cos (F := Ideal) (φ := .f32) (shapeCast S16x64 (extractStridedSlice S16x64x1 ![0, 0, 0] p slices_S16x64x3_S16x64x1_0_0_0) shapeCasts_S16x64x1_S16x64)) shapeCasts_S16x64_S1x1x1024 k
      = Ideal.cos (p (angleAt (k 2).val (k 2).isLt)) := by
  have hk0 : (k 0).val < 1 := (k 0).isLt
  have hk1 : (k 1).val < 1 := (k 1).isLt
  have hk2 : (k 2).val < 1024 := (k 2).isLt
  refine (shapeCast_apply _ shapeCasts_S16x64_S1x1x1024 k
    (ix2 (⟨(k 2).val / 64, by omega⟩ : Fin 16) (⟨(k 2).val % 64, Nat.mod_lt _ (by decide)⟩ : Fin 64)) ?_).trans ?_
  · rewrite [Shape.rowMajor_val_two, Shape.rowMajor_val_three]
    show (k 2).val / 64 * 64 + (k 2).val % 64 = ((k 0).val * 1 + (k 1).val) * 1024 + (k 2).val
    omega
  show Ideal.cos (shapeCast S16x64 (extractStridedSlice S16x64x1 ![0, 0, 0] p slices_S16x64x3_S16x64x1_0_0_0) shapeCasts_S16x64x1_S16x64
    (ix2 (⟨(k 2).val / 64, by omega⟩ : Fin 16) (⟨(k 2).val % 64, Nat.mod_lt _ (by decide)⟩ : Fin 64))) = _
  refine congrArg Ideal.cos ?_
  refine (shapeCast_apply _ shapeCasts_S16x64x1_S16x64 _
    (ix3 (⟨(k 2).val / 64, by omega⟩ : Fin 16) (⟨(k 2).val % 64, Nat.mod_lt _ (by decide)⟩ : Fin 64) (0 : Fin 1)) ?_).trans ?_
  · rewrite [Shape.rowMajor_val_three, Shape.rowMajor_val_two]
    show ((k 2).val / 64 * 64 + (k 2).val % 64) * 1 + 0 = (k 2).val / 64 * 64 + (k 2).val % 64
    omega
  exact extractStridedSlice_apply ![0, 0, 0] p slices_S16x64x3_S16x64x1_0_0_0 _ (angleAt (k 2).val (k 2).isLt) (fun a => match a with
    | ⟨0, _⟩ => by show (k 2).val / 64 = 0 + (k 2).val / 64; omega
    | ⟨1, _⟩ => by show (k 2).val % 64 = 0 + (k 2).val % 64; omega
    | ⟨2, _⟩ => by show 0 = 0 + 0; omega)

theorem angleAt_congr {e e' : Nat} (h : e = e') (he : e < 1024) (he' : e' < 1024) : angleAt e he = angleAt e' he' := by
  subst h; rfl

/-! ## What a point writes back -/

/-- The printed index maps, decided over the 128 points: the input's block moves with the output's, the row of scales stays
    at its one block, and the output's blocks span the whole channel axis. -/
theorem idx_facts : ∀ t : Fin cfg0.N,
    win0_0.index t (0 : Fin 3) = win0_2.index t (0 : Fin 3) ∧ win0_0.index t (1 : Fin 3) = win0_2.index t (1 : Fin 3)
    ∧ win0_0.index t (2 : Fin 3) = win0_2.index t (2 : Fin 3)
    ∧ win0_1.index t (0 : Fin 3) = 0 ∧ win0_1.index t (1 : Fin 3) = 0 ∧ win0_1.index t (2 : Fin 3) = 0
    ∧ win0_2.index t (2 : Fin 3) = 0 :=
  (by decide +kernel : ∀ t : Fin grid0.N, _)

/-- WHAT POINT `t` WRITES BACK is block `t` of `readout` of the two arguments. -/
theorem flushed_eq (c : Dev nD) (t : Fin cfg0.N) :
    (dats m 0 c).flushed 2 t
      = ((cfg0.win 2).blk t).view.read (Elt Ideal) (readout (m ((c : Thread nD τ).loc main_arg0)) (m ((c : Thread nD τ).loc main_arg1))) := by
  rw [flushed2]
  obtain ⟨e0, e1, e2, s0, s1, s2, o2⟩ := idx_facts t
  funext y
  have hy0 : (y 0).val < 1 := (y 0).isLt
  have hy1 : (y 1).val < 512 := (y 1).isLt
  have hy2 : (y 2).val < 1024 := (y 2).isLt
  show out0_2 (iblk m c 0 t) (iblk m c 1 t) y
    = readout (m ((c : Thread nD τ).loc main_arg0)) (m ((c : Thread nD τ).loc main_arg1)) (((cfg0.win 2).blk t).view.emb y)
  refine (block_apply _ _ y).trans ?_
  rw [readout_apply]
  -- the input block at `y` is the input array where the output block's `y` lies
  have hx : (iblk m c 0 t : Vec Ideal S1x512x1024 .f32) y
      = m ((c : Thread nD τ).loc main_arg0) (((cfg0.win 2).blk t).view.emb y) := by
    show V m c main_arg0 (((cfg0.win 0).blk t).view.emb y) = _
    rw [V_main_arg0]
    refine congrArg _ ?_
    funext a; apply Fin.ext
    match a with
    | ⟨0, _⟩ => show win0_0.index t (0 : Fin 3) * 1 + 1 * (y 0).val = win0_2.index t (0 : Fin 3) * 1 + 1 * (y 0).val; omega
    | ⟨1, _⟩ => show win0_0.index t (1 : Fin 3) * 512 + 1 * (y 1).val = win0_2.index t (1 : Fin 3) * 512 + 1 * (y 1).val; omega
    | ⟨2, _⟩ => show win0_0.index t (2 : Fin 3) * 1024 + 1 * (y 2).val = win0_2.index t (2 : Fin 3) * 1024 + 1 * (y 2).val; omega
  -- the row of scales at `y`'s channel is the cosine of that channel's parameter entry
  have hr : (iblk m c 1 t : Vec Ideal S1x1x1024 .f32) (ix2_1 y)
      = Ideal.cos (m ((c : Thread nD τ).loc main_arg1) (angleAt ((((cfg0.win 2).blk t).view.emb y) 2).val ((((cfg0.win 2).blk t).view.emb y) 2).isLt)) := by
    show (V m c main_v3 : S1x1x1024.Idx → EReal) (((cfg0.win 1).blk t).view.emb (ix2_1 y)) = _
    rw [scale_row]
    refine (scale_row_apply _ _).trans ?_
    refine congrArg (fun k => Ideal.cos (m ((c : Thread nD τ).loc main_arg1) k)) (angleAt_congr ?_ _ _)
    show win0_1.index t (2 : Fin 3) * 1024 + 1 * (y 2).val = win0_2.index t (2 : Fin 3) * 1024 + 1 * (y 2).val
    omega
  rw [hx, hr]

/-! ## The blocks tile the result -/

/-- An index of the result is in point `t`'s block iff each coordinate is in the block's range on its axis. -/
theorem mem_blk (t : Fin cfg0.N) (i : S8x8192x1024.Idx) :
    i ∈ ((cfg0.win 2).blk t).view.set ↔ ∀ a : Fin 3, win0_2.index t a * S1x512x1024.size a ≤ (i a).val ∧ (i a).val < win0_2.index t a * S1x512x1024.size a + S1x512x1024.size a := by
  show i ∈ ((View.whole main_v4).slice (win0_2.rect t)).set ↔ _
  rw [View.set_slice_whole, Rect.mem_set_unit]
  exact Iff.rfl

/-- Every block `(b, j, 0)` of the 8 × 16 × 1 is some point's. -/
theorem point_of_block : ∀ (q0 : Fin 8) (q1 : Fin 16), ∃ t : Fin cfg0.N, win0_2.index t = ![q0.val, q1.val, 0] :=
  (by decide +kernel : ∀ (q0 : Fin 8) (q1 : Fin 16), ∃ t : Fin grid0.N, win0_2.index t = ![q0.val, q1.val, 0])

/-- Index `(b, s, e)` lies in the block of the point at `(b, s / 512)`, and every point writes back. -/
theorem covered (i : S8x8192x1024.Idx) :
    ∃ t : Fin cfg0.N, (cfg0.win 2).flush t = true ∧ i ∈ ((cfg0.win 2).blk t).view.set := by
  have hi0 : (i 0).val < 8 := (i 0).isLt
  have hi1 : (i 1).val < 8192 := (i 1).isLt
  have hi2 : (i 2).val < 1024 := (i 2).isLt
  obtain ⟨t, ht⟩ := point_of_block ⟨(i 0).val, hi0⟩ ⟨(i 1).val / 512, by omega⟩
  have q0 : win0_2.index t (0 : Fin 3) = (i 0).val := congrFun ht 0
  have q1 : win0_2.index t (1 : Fin 3) = (i 1).val / 512 := congrFun ht 1
  have q2 : win0_2.index t (2 : Fin 3) = 0 := congrFun ht 2
  refine ⟨t, flush0_2 t, ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 512 ≤ (i 1).val ∧ (i 1).val < win0_2.index t (1 : Fin 3) * 512 + 512; omega
  | ⟨2, _⟩ => show win0_2.index t (2 : Fin 3) * 1024 ≤ (i 2).val ∧ (i 2).val < win0_2.index t (2 : Fin 3) * 1024 + 1024; omega

/-- So the result array ends holding `readout` of the two arguments. -/
theorem final (c : Dev nD) :
    (dats m 0 c).arrAt 2 cfg0.N = readout (m ((c : Thread nD τ).loc main_arg0)) (m ((c : Thread nD τ).loc main_arg1)) :=
  (dats m 0 c).arrAt_eq_of_cover 2 _ (fun t _ => flushed_eq m c t) covered

/-- The kernel's run, read: the result at `readout` of the arguments, the arguments unchanged. -/
theorem run : θ_run defs (onTc (τ := τ) (main (F := Ideal))) ⟨m, fun _ => 0, ρ⟩ fun r => ∀ c : Dev nD,
      r.2.mem ((c : Thread nD τ).loc main_v4) = readout (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.Hand

end
-- ==== Proof.lean ====
/-
  A block-streamed product of cosines against its whole-array form, over the extended reals.

  Both programs compute, index by index,  out[b, s, e] = cos(x[b, s, e]) · cos(params[e / 64, e % 64, 0])  (`Cert.Readout.readout`).
  The kernel forms the row of 1024 scales `cos(params[·, ·, 0])` on the host, then at each of 8 × 16 points multiplies the cosine
  of a 512-row block of `x` by that row and writes the block back; the 128 blocks tile the result (Proof/KernelReadout.lean, over
  the generated frame run and its blockwise reading). The reference splits the channel axis as 16 × 64, multiplies by the same
  table broadcast over the two leading axes, and joins the axes again; splitting and joining move no entry
  (Proof/ReferenceReadout.lean, over the generated run and its stages read at an index). The kernel's cosine and the host's are
  one function on the extended reals, and so are the two products, so the two sides are the same term at every index and no input
  needs to be finite for it. The word-level kernel's frame and the idealized kernel's are the generated frame runs; the
  reference's is its generated run with the result dropped; the idealization rewrote nothing.
-/
import proofs.«167785_j65481071406286_1_alg».proof.Defs
import proofs.«167785_j65481071406286_1_alg».proof.Proof.Gen.Kernel
import proofs.«167785_j65481071406286_1_alg».proof.Proof.Gen.Kernel.Skeleton
import proofs.«167785_j65481071406286_1_alg».proof.Proof.Gen.Kernel.Launch
import proofs.«167785_j65481071406286_1_alg».proof.Proof.Gen.Kernel.Points
import proofs.«167785_j65481071406286_1_alg».proof.Proof.Gen.Kernel.Frame
import proofs.«167785_j65481071406286_1_alg».proof.Proof.Gen.KernelIdeal
import proofs.«167785_j65481071406286_1_alg».proof.Proof.Gen.KernelIdeal.Skeleton
import proofs.«167785_j65481071406286_1_alg».proof.Proof.Gen.KernelIdeal.Launch
import proofs.«167785_j65481071406286_1_alg».proof.Proof.Gen.KernelIdeal.Points
import proofs.«167785_j65481071406286_1_alg».proof.Proof.Gen.KernelIdeal.Frame
import proofs.«167785_j65481071406286_1_alg».proof.Proof.Gen.ReferenceIdeal
import proofs.«167785_j65481071406286_1_alg».proof.Proof.Gen.KernelIdeal.Value
import proofs.«167785_j65481071406286_1_alg».proof.Proof.Gen.ReferenceIdeal.Run
import proofs.«167785_j65481071406286_1_alg».proof.Proof.Gen.ReferenceIdeal.Read
import proofs.«167785_j65481071406286_1_alg».proof.Proof.Gen.Pre_finite_inputs
import proofs.«167785_j65481071406286_1_alg».proof.Proof.Readout
import proofs.«167785_j65481071406286_1_alg».proof.Proof.ReferenceReadout
import proofs.«167785_j65481071406286_1_alg».proof.Proof.KernelReadout
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- And the reference: its run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the two arguments, both programs end with the result at `readout` of those arguments. -/
theorem algebraic : Cert.algebraic_KernelIdeal_ReferenceIdeal := by
  intro m ρ m' ρ' _ hagree
  refine ⟨fun c => Cert.Readout.readout (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.ReferenceIdeal.RefValue.result_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
